-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)) →
    ∃ (v0 : (c : Dev Cert.KernelIdeal.nD) → Buf (Elt Ideal) ((c.tc : Thread Cert.KernelIdeal.nD Cert.KernelIdeal.τ).loc Cert.KernelIdeal.main_v2)) (v1 : (c : Dev Cert.KernelIdeal.nD) → Buf (Elt Ideal) ((c.tc : Thread Cert.KernelIdeal.nD Cert.KernelIdeal.τ).loc Cert.KernelIdeal.main_v3)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v2) = v0 c
          ∧ r.2.mem ((c.tc : Thread Cert.KernelIdeal.nD Cert.KernelIdeal.τ).loc Cert.KernelIdeal.main_v3) = v1 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v14) = v0 c
          ∧ r.2.mem ((c.tc : Thread Cert.ReferenceIdeal.nD Cert.ReferenceIdeal.τ).loc Cert.ReferenceIdeal.main_v13) = v1 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S32768x1024 : Shape := ⟨2, ![32768, 1024]⟩
abbrev S64x1024 : Shape := ⟨2, ![64, 1024]⟩
abbrev S64 : Shape := ⟨1, ![64]⟩
abbrev S_ : Shape := ⟨0, ![]⟩

class Facts : Prop where
  bcast_S_S32768x1024 : S_.BroadcastsInDim S32768x1024 (![] : Fin 0 → Fin S32768x1024.rank)
  reducesTo_S32768x1024_S_d0_1 : S32768x1024.ReducesTo [0, 1] S_
  h_S_ : 0 < S_.numel
  bcast_S_S64x1024 : S_.BroadcastsInDim S64x1024 (![] : Fin 0 → Fin S64x1024.rank)
  reducesTo_S64x1024_S_d0_1 : S64x1024.ReducesTo [0, 1] S_
  bcast_S_S64 : S_.BroadcastsInDim S64 (![] : Fin 0 → Fin S64.rank)
  reducesTo_S64_S_d0 : S64.ReducesTo [0] S_

variable [Facts]

def fn {F : FTy → Type} [FloatOps F] (main_arg0 : FVec F S32768x1024 .f32) (main_arg1 : FVec F S64x1024 .f32) (main_arg2 : FVec F S64 .f32) : IVec S_ 1 :=
  let main_v0 : FVec F S32768x1024 .f32 := Host.absf main_arg0
  let main_cst : FVec F S_ .f32 := constant S_ .f32 0x7F800000#32
  let main_v1 : FVec F S32768x1024 .f32 := broadcastInDim S32768x1024 ![] bcast_S_S32768x1024 main_cst
  let main_v2 : IVec S32768x1024 1 := cmpf .olt main_v0 main_v1
  let main_c : IVec S_ 1 := constantI S_ 1 1#1
  let main_v3 : IVec S_ 1 := (fun x v => Host.reduce IntOp.andi x v reducesTo_S32768x1024_S_d0_1 h_S_) main_v2 main_c
  let main_v4 : FVec F S64x1024 .f32 := Host.absf main_arg1
  let main_cst_0 : FVec F S_ .f32 := constant S_ .f32 0x7F800000#32
  let main_v5 : FVec F S64x1024 .f32 := broadcastInDim S64x1024 ![] bcast_S_S64x1024 main_cst_0
  let main_v6 : IVec S64x1024 1 := cmpf .olt main_v4 main_v5
  let main_c_1 : IVec S_ 1 := constantI S_ 1 1#1
  let main_v7 : IVec S_ 1 := (fun x v => Host.reduce IntOp.andi x v reducesTo_S64x1024_S_d0_1 h_S_) main_v6 main_c_1
  let main_v8 : IVec S_ 1 := andi main_v3 main_v7
  let main_v9 : FVec F S64 .f32 := Host.absf main_arg2
  let main_cst_2 : FVec F S_ .f32 := constant S_ .f32 0x7F800000#32
  let main_v10 : FVec F S64 .f32 := broadcastInDim S64 ![] bcast_S_S64 main_cst_2
  let main_v11 : IVec S64 1 := cmpf .olt main_v9 main_v10
  let main_c_3 : IVec S_ 1 := constantI S_ 1 1#1
  let main_v12 : IVec S_ 1 := (fun x v => Host.reduce IntOp.andi x v reducesTo_S64_S_d0 h_S_) main_v11 main_c_3
  let main_v13 : IVec S_ 1 := andi main_v8 main_v12
  main_v13
-- ==== Kernel.lean ====
abbrev S32768x1024 : Shape := ⟨2, ![32768, 1024]⟩
abbrev S64x1024 : Shape := ⟨2, ![64, 1024]⟩
abbrev S64 : Shape := ⟨1, ![64]⟩
abbrev S64x1 : Shape := ⟨2, ![64, 1]⟩
abbrev S64x32768 : Shape := ⟨2, ![64, 32768]⟩
abbrev S2048x1024 : Shape := ⟨2, ![2048, 1024]⟩
abbrev S64x2048 : Shape := ⟨2, ![64, 2048]⟩
abbrev S32768x64 : Shape := ⟨2, ![32768, 64]⟩

abbrev nBuf : Space → Nat
  | .hbm => 8
  | .vmem => 8
  | .smem => 0
  | _ => 0

abbrev bufTy : (tb : Table) → Fin (tcTables nBuf tb) → BufTy
  | .hbm, ⟨0, _⟩ => ⟨S32768x1024, .f32⟩
  | .hbm, ⟨1, _⟩ => ⟨S64x1024, .f32⟩
  | .hbm, ⟨2, _⟩ => ⟨S64, .f32⟩
  | .hbm, ⟨3, _⟩ => ⟨S64x1, .f32⟩
  | .hbm, ⟨4, _⟩ => ⟨S64x32768, .f32⟩
  | .hbm, ⟨5, _⟩ => ⟨S64x32768, .f32⟩
  | .hbm, ⟨6, _⟩ => ⟨S32768x64, .f32⟩
  | .hbm, ⟨7, _⟩ => ⟨S32768x64, .f32⟩
  | .local _ .vmem, ⟨0, _⟩ => ⟨S2048x1024, .f32⟩
  | .local _ .vmem, ⟨1, _⟩ => ⟨S2048x1024, .f32⟩
  | .local _ .vmem, ⟨2, _⟩ => ⟨S64x1024, .f32⟩
  | .local _ .vmem, ⟨3, _⟩ => ⟨S64x1, .f32⟩
  | .local _ .vmem, ⟨4, _⟩ => ⟨S64x2048, .f32⟩
  | .local _ .vmem, ⟨5, _⟩ => ⟨S64x2048, .f32⟩
  | .local _ .vmem, ⟨6, _⟩ => ⟨S64x2048, .f32⟩
  | .local _ .vmem, ⟨7, _⟩ => ⟨S64x2048, .f32⟩
  | _, _ => ⟨S32768x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1_0 : Ref sig .tc := ⟨.hbm, 4, rfl⟩
abbrev main_v1_1 : Ref sig .tc := ⟨.hbm, 5, rfl⟩
abbrev main_v2 : Ref sig .tc := ⟨.hbm, 6, rfl⟩
abbrev main_v3 : Ref sig .tc := ⟨.hbm, 7, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg3_1 : Ref sig .tc := ⟨.vmem, 5, rfl⟩
abbrev cc0_stg4_0 : Ref sig .tc := ⟨.vmem, 6, rfl⟩
abbrev cc0_stg4_1 : Ref sig .tc := ⟨.vmem, 7, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem3_1 : DmaSem sig := 5
abbrev cc0_sem4_0 : DmaSem sig := 6
abbrev cc0_sem4_1 : DmaSem sig := 7

abbrev nD : Nat := 1
abbrev τ : Topo := Topo.v7x

variable {F : FTy → Type} [FloatOps F]

abbrev grid0 : Pipeline.Grid := ⟨1, ![16], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_4 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

abbrev stage0_0 : Fin 2 → Memref sig .tc .vmem S2048x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S64x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S64x1 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S64x2048 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S64x2048 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

class Facts₀ : Prop where
  shapeCasts_S64_S64x1 : S64.ShapeCasts S64x1
  inb_S64x1024_S64x1024_0_0 : ∀ a, (![0, 0] : Fin 2 → Nat) a + S64x1024.size a ≤ S64x1024.size a
  h_S64x1024 : 0 < S64x1024.numel
  inb_S2048x1024_S2048x1024_0_0 : ∀ a, (![0, 0] : Fin 2 → Nat) a + S2048x1024.size a ≤ S2048x1024.size a
  h_S2048x1024 : 0 < S2048x1024.numel
  inb_S64x1_S64x1_0_0 : ∀ a, (![0, 0] : Fin 2 → Nat) a + S64x1.size a ≤ S64x1.size a
  h_S64x1 : 0 < S64x1.numel
  shapeCasts_S64x1_S64x1 : S64x1.ShapeCasts S64x1
  broadcasts_S64x1_S64x2048 : S64x1.Broadcasts S64x2048
  natLt_1_32 : 1 < 32
  inb_S64x2048_S64x2048_0_0 : ∀ a, (![0, 0] : Fin 2 → Nat) a + S64x2048.size a ≤ S64x2048.size a
  h_S64x2048 : 0 < S64x2048.numel
  transposes_S64x32768_S32768x64_1_0 : S64x32768.Transposes [1, 0] S32768x64
  dot_S64x1024_S2048x1024_S64x2048_1_1_0_0_n_n_wf : DotDims.WF S64x1024 S2048x1024 S64x2048 [1] [1] [0] [0] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S2048x1024.size a ≤ S32768x1024.size a
  hwx0_0 : ∀ i : grid0.Coords, EltTy.bits .f32 = 32 ∨ (Rect.block (s := S32768x1024) S2048x1024.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S64x1024.size a ≤ S64x1024.size a
  hwx0_1 : ∀ i : grid0.Coords, EltTy.bits .f32 = 32 ∨ (Rect.block (s := S64x1024) S64x1024.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S64x1.size a ≤ S64x1.size a
  hwx0_2 : ∀ i : grid0.Coords, EltTy.bits .f32 = 32 ∨ (Rect.block (s := S64x1) S64x1.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S64x2048.size a ≤ S64x32768.size a
  hwx0_3 : ∀ i : grid0.Coords, EltTy.bits .f32 = 32 ∨ (Rect.block (s := S64x32768) S64x2048.size (cc0_transform_3 i) (hinb0_3 i)).WholeWords (EltTy.packing .f32)
  hstage0_4 : ∀ j, (stage0_4 j).IsWhole
  nbuf0_4 : grid0.bufCount reads0_4 false = 2
  hreads0_4 : ∀ i i' : grid0.Coords, (∀ a, reads0_4 a = true → i a = i' a) → cc0_transform_4 i = cc0_transform_4 i'
  hinb0_4 : ∀ (i : grid0.Coords) a, (cc0_transform_4 i a + 1) * S64x2048.size a ≤ S64x32768.size a
  hwx0_4 : ∀ i : grid0.Coords, EltTy.bits .f32 = 32 ∨ (Rect.block (s := S64x32768) S64x2048.size (cc0_transform_4 i) (hinb0_4 i)).WholeWords (EltTy.packing .f32)

variable [Facts₀]

def dot_S64x1024_S2048x1024_S64x2048_1_1_0_0_n_n : DotDims S64x1024 S2048x1024 S64x2048 where
  lhsContracting := [1]
  rhsContracting := [1]
  lhsNonContracting := [0]
  rhsNonContracting := [0]
  lhsBatch := []
  rhsBatch := []
  wf := dot_S64x1024_S2048x1024_S64x2048_1_1_0_0_n_n_wf

abbrev win0_0 : Pipeline.Window sig grid0 :=
  Pipeline.Window.ofSpec (Memref.whole main_arg0) S2048x1024.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg1) S64x1024.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v0) S64x1.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v1_0) S64x2048.size cc0_transform_3 reads0_3 true false 2 stage0_3 sem0_3
    hrank0 hreads0_3 hinb0_3 nbuf0_3 (Memref.isWhole_whole _) hwx0_3 hstage0_3

abbrev win0_4 : Pipeline.Window sig grid0 :=
  Pipeline.Window.ofSpec (Memref.whole main_v1_1) S64x2048.size cc0_transform_4 reads0_4 true false 2 stage0_4 sem0_4
    hrank0 hreads0_4 hinb0_4 nbuf0_4 (Memref.isWhole_whole _) hwx0_4 hstage0_4

abbrev win0 : Fin 5 → Pipeline.Window sig grid0 := fun | 0 => win0_0 | 1 => win0_1 | 2 => win0_2 | 3 => win0_3 | 4 => win0_4 | ⟨_ + 5, h⟩ => absurd h (Nat.not_lt.2 (Nat.le_add_left _ _))
abbrev spec0 : Fin 5 → Pipeline.WinSpec sig grid0.rank := fun w => (win0 w).toWinSpec

class Facts : Prop extends Facts₀ where

variable [Facts]
-- ==== ReferenceIdeal.lean ====
abbrev S32768x1024 : Shape := ⟨2, ![32768, 1024]⟩
abbrev S64x1024 : Shape := ⟨2, ![64, 1024]⟩
abbrev S64 : Shape := ⟨1, ![64]⟩
abbrev S1024x64 : Shape := ⟨2, ![1024, 64]⟩
abbrev S32768x64 : Shape := ⟨2, ![32768, 64]⟩
abbrev S1x64 : Shape := ⟨2, ![1, 64]⟩
abbrev S_ : Shape := ⟨0, ![]⟩

abbrev nBuf : Space → Nat
  | .hbm => 21
  | .vmem => 0
  | .smem => 0
  | _ => 0

abbrev bufTy : (tb : Table) → Fin (tcTables nBuf tb) → BufTy
  | .hbm, ⟨0, _⟩ => ⟨S32768x1024, .f32⟩
  | .hbm, ⟨1, _⟩ => ⟨S64x1024, .f32⟩
  | .hbm, ⟨2, _⟩ => ⟨S64, .f32⟩
  | .hbm, ⟨3, _⟩ => ⟨S1024x64, .f32⟩
  | .hbm, ⟨4, _⟩ => ⟨S32768x64, .f32⟩
  | .hbm, ⟨5, _⟩ => ⟨S1x64, .f32⟩
  | .hbm, ⟨6, _⟩ => ⟨S32768x64, .f32⟩
  | .hbm, ⟨7, _⟩ => ⟨S32768x64, .f32⟩
  | .hbm, ⟨8, _⟩ => ⟨S32768x64, .f32⟩
  | .hbm, ⟨9, _⟩ => ⟨S32768x64, .f32⟩
  | .hbm, ⟨10, _⟩ => ⟨S_, .f32⟩
  | .hbm, ⟨11, _⟩ => ⟨S32768x64, .f32⟩
  | .hbm, ⟨12, _⟩ => ⟨S32768x64, .f32⟩
  | .hbm, ⟨13, _⟩ => ⟨S_, .f32⟩
  | .hbm, ⟨14, _⟩ => ⟨S32768x64, .f32⟩
  | .hbm, ⟨15, _⟩ => ⟨S32768x64, .f32⟩
  | .hbm, ⟨16, _⟩ => ⟨S_, .f32⟩
  | .hbm, ⟨17, _⟩ => ⟨S32768x64, .f32⟩
  | .hbm, ⟨18, _⟩ => ⟨S32768x64, .i1⟩
  | .hbm, ⟨19, _⟩ => ⟨S32768x64, .f32⟩
  | .hbm, ⟨20, _⟩ => ⟨S32768x64, .f32⟩
  | _, _ => ⟨S32768x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_cst : Ref sig .tc := ⟨.hbm, 10, rfl⟩
abbrev main_v7 : Ref sig .tc := ⟨.hbm, 11, rfl⟩
abbrev main_v8 : Ref sig .tc := ⟨.hbm, 12, rfl⟩
abbrev main_cst_0 : Ref sig .tc := ⟨.hbm, 13, rfl⟩
abbrev main_v9 : Ref sig .tc := ⟨.hbm, 14, rfl⟩
abbrev main_v10 : Ref sig .tc := ⟨.hbm, 15, rfl⟩
abbrev main_cst_1 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩

abbrev nD : Nat := 1
abbrev τ : Topo := Topo.v7x

variable {F : FTy → Type} [FloatOps F]

class Facts₀ : Prop where
  transposes_S64x1024_S1024x64_1_0 : S64x1024.Transposes [1, 0] S1024x64
  bcast_S64_S1x64_1 : S64.BroadcastsInDim S1x64 (![1] : Fin 1 → Fin S1x64.rank)
  bcast_S1x64_S32768x64_0_1 : S1x64.BroadcastsInDim S32768x64 (![0, 1] : Fin 2 → Fin S32768x64.rank)
  bcast_S_S32768x64 : S_.BroadcastsInDim S32768x64 (![] : Fin 0 → Fin S32768x64.rank)
  dot_S32768x1024_S1024x64_S32768x64_1_0_0_1_n_n_wf : DotDims.WF S32768x1024 S1024x64 S32768x64 [1] [0] [0] [1] [] []

variable [Facts₀]

def dot_S32768x1024_S1024x64_S32768x64_1_0_0_1_n_n : DotDims S32768x1024 S1024x64 S32768x64 where
  lhsContracting := [1]
  rhsContracting := [0]
  lhsNonContracting := [0]
  rhsNonContracting := [1]
  lhsBatch := []
  rhsBatch := []
  wf := dot_S32768x1024_S1024x64_S32768x64_1_0_0_1_n_n_wf

class Facts : Prop extends Facts₀ where

variable [Facts]
-- ==== Proof.GateSpec.lean ====
/-
  Top-any gating as mathematics, independent of any program.

  For a token with feature row `x` and an expert with weight row `w` and bias `β`, the logit is the inner product
  `∑ₖ wₖ · xₖ` plus `β`; the probability is the logistic function `1 / (1 + e^(-logit))` of the logit; the mask is `1`
  where the probability exceeds one half and `0` elsewhere; the gated probability is the probability times the mask.
  All values are extended reals. The inner product is written with the weight as the left factor; the other order is the
  same number because the product of extended reals commutes, and no other algebraic law is used anywhere, so nothing
  here asks the inputs to be finite.
-/
import Idealize.ShloMosaic.PureOps.Ideal.Laws
import Idealize.ShloMosaic.Lib.ValueIdx
import Idealize.ShloMosaic.Lib.IdealHost

noncomputable section

namespace Cert.Gating

open Idealize.ShloMosaic Idealize.ShloMosaic.ValueIdx
open scoped BigOperators

/-- The probability from one weight row, one feature row and one bias: the logistic function of their inner product
    plus the bias. -/
def prob (wrow xrow : Fin 1024 → EReal) (bias : EReal) : EReal :=
  Ideal.logistic ((∑ k : Fin 1024, wrow k * xrow k) + bias)

/-- The threshold mask of a probability: the comparison "greater than one half" as a bit, read as the number 0 or 1.
    One half is the binary32 word `0x3F000000`. -/
def mask (p : EReal) : EReal :=
  (((Ideal.cmp .ogt p (Ideal.ofBits .f32 0x3F000000#32)).toNat : ℝ) : EReal)

/-- The gated probability: the probability where it exceeds one half, zero elsewhere. -/
def gated (p : EReal) : EReal := p * mask p

/-- The logistic function written out as a quotient whose two ones are the binary32 word of one. -/
theorem logistic_spelled (z : EReal) :
    Ideal.div (Ideal.ofBits .f32 0x3F800000#32) (Ideal.ofBits .f32 0x3F800000#32 + Ideal.exp (-z)) = Ideal.logistic z := by
  rw [Ideal.ofBits_one_f32]; rfl

/-- The inner product does not depend on which factor is written first. -/
theorem prob_comm (wrow xrow : Fin 1024 → EReal) (bias : EReal) :
    Ideal.logistic ((∑ k : Fin 1024, xrow k * wrow k) + bias) = prob wrow xrow bias := by
  unfold prob
  exact congrArg (fun s => Ideal.logistic (s + bias)) (Finset.sum_congr rfl fun k _ => mul_comm _ _)

/-- Features `[32768, 1024]`, weights `[64, 1024]`, biases `[64]`. -/
abbrev SX : Shape := ⟨2, ![32768, 1024]⟩
abbrev SW : Shape := ⟨2, ![64, 1024]⟩
abbrev SB : Shape := ⟨1, ![64]⟩
/-- Results token-major `[32768, 64]`; the same numbers expert-major `[64, 32768]`. -/
abbrev STE : Shape := ⟨2, ![32768, 64]⟩
abbrev SET : Shape := ⟨2, ![64, 32768]⟩

/-- The probability of expert `e` for token `t`. -/
def probAt (x : SX.Idx → EReal) (W : SW.Idx → EReal) (b : SB.Idx → EReal) (t : Fin 32768) (e : Fin 64) : EReal :=
  prob (fun k => W (ix2 e k)) (fun k => x (ix2 t k)) (b (ix1 e))

/-- The two results, token-major: entry `(t, e)` is of token `t` and expert `e`. -/
def gatedOut (x : SX.Idx → EReal) (W : SW.Idx → EReal) (b : SB.Idx → EReal) : STE.Idx → EReal :=
  fun i => gated (probAt x W b (i 0) (i 1))
def maskOut (x : SX.Idx → EReal) (W : SW.Idx → EReal) (b : SB.Idx → EReal) : STE.Idx → EReal :=
  fun i => mask (probAt x W b (i 0) (i 1))

/-- The same two arrays expert-major: entry `(e, t)` is of token `t` and expert `e`. -/
def gatedT (x : SX.Idx → EReal) (W : SW.Idx → EReal) (b : SB.Idx → EReal) : SET.Idx → EReal :=
  fun i => gated (probAt x W b (i 1) (i 0))
def maskT (x : SX.Idx → EReal) (W : SW.Idx → EReal) (b : SB.Idx → EReal) : SET.Idx → EReal :=
  fun i => mask (probAt x W b (i 1) (i 0))

end Cert.Gating

end
-- ==== Proof.RefGate.lean ====
/-
  The reference program's stages are the gating functions of `GateSpec`, index by index.

  At entry `(t, e)` the reference contracts the token's feature row with the transposed weights, that is with the
  expert's weight row, the feature being the LEFT factor; adds the bias broadcast along the tokens; and spells the logistic
  function as `1 / (1 + exp (-logit))` with the binary32 word of one. Commuting the product inside the sum and reading
  the word of one as `1` makes this `Gating.probAt`. The mask is the comparison bit converted unsigned, which is
  `Gating.mask` by definition, and the gated probability is their product.
-/
import proofs.«107763_g22239340659018_cont_8to1_1570_20_alg».proof.Proof.Gen.ReferenceIdeal.Read
import proofs.«107763_g22239340659018_cont_8to1_1570_20_alg».proof.Proof.GateSpec

noncomputable section

namespace Cert.Gating.Ref

open Cert.ReferenceIdeal Cert.ReferenceIdeal.Gen Cert.ReferenceIdeal.Read
open Idealize.ShloMosaic Idealize.ShloMosaic.ValueIdx
open scoped BigOperators

/-- The feature the contraction reads on the left at entry `i` and position `k` is `x[t, k]`. -/
theorem lidx_eq (i : S32768x64.Idx) (k : Fin 1024) : lidx_main_v1 i k = ix2 (i 0) k :=
  funext fun a => Fin.ext (by match a with | ⟨0, _⟩ => rfl | ⟨1, _⟩ => rfl)

/-- The transposed weight it reads on the right is `W[e, k]`. -/
theorem ridx_eq (i : S32768x64.Idx) (k : Fin 1024) : idx_main_v0 (ridx_main_v1 i k) = ix2 (i 1) k :=
  funext fun a => Fin.ext (by match a with | ⟨0, _⟩ => rfl | ⟨1, _⟩ => rfl)

/-- The bias broadcast twice is read at the expert's coordinate. -/
theorem bidx_eq (i : S32768x64.Idx) : idx_main_v2 (idx_main_v3 i) = ix1 (i 1) :=
  funext fun a => Fin.ext (by match a with | ⟨0, _⟩ => rfl)

/-- The reference's probability stage at entry `(t, e)` is the probability of expert `e` for token `t`. -/
theorem prob_apply (x0 : (⟨S32768x1024, .f32⟩ : BufTy).Contents (Elt Ideal)) (x1 : (⟨S64x1024, .f32⟩ : BufTy).Contents (Elt Ideal))
    (x2 : (⟨S64, .f32⟩ : BufTy).Contents (Elt Ideal)) (i : S32768x64.Idx) :
    val_main_v10 (F := Ideal) x0 x1 x2 i = probAt x0 x1 x2 (i 0) (i 1) := by
  rw [val_main_v10_apply, val_main_v9_apply, val_main_cst_0_apply, val_main_v8_apply, val_main_v7_apply, val_main_cst_apply,
    val_main_v6_apply, val_main_v5_apply, val_main_v4_apply, val_main_v1_apply, val_main_v3_apply, val_main_v2_apply]
  simp only [val_main_v0_apply, lidx_eq, ridx_eq, bidx_eq, Ideal.hostDivf_def, Ideal.ofBits_def, Ideal.addf_def,
    Ideal.hostUnary_exp_def, Ideal.hostNegf_def, Ideal.negf_def]
  rw [logistic_spelled]
  exact prob_comm (fun k => x1 (ix2 (i 1) k)) (fun k => x0 (ix2 (i 0) k)) (x2 (ix1 (i 1)))

/-- The reference's mask stage at entry `(t, e)`. -/
theorem mask_apply (x0 : (⟨S32768x1024, .f32⟩ : BufTy).Contents (Elt Ideal)) (x1 : (⟨S64x1024, .f32⟩ : BufTy).Contents (Elt Ideal))
    (x2 : (⟨S64, .f32⟩ : BufTy).Contents (Elt Ideal)) (i : S32768x64.Idx) :
    val_main_v13 (F := Ideal) x0 x1 x2 i = mask (probAt x0 x1 x2 (i 0) (i 1)) := by
  rw [val_main_v13_apply, val_main_v12_apply, prob_apply, val_main_v11_apply, val_main_cst_1_apply]
  rfl

/-- The reference's mask result is the token-major mask array. -/
theorem mask_eq (x0 : (⟨S32768x1024, .f32⟩ : BufTy).Contents (Elt Ideal)) (x1 : (⟨S64x1024, .f32⟩ : BufTy).Contents (Elt Ideal))
    (x2 : (⟨S64, .f32⟩ : BufTy).Contents (Elt Ideal)) :
    val_main_v13 (F := Ideal) x0 x1 x2 = maskOut x0 x1 x2 :=
  funext fun i => mask_apply x0 x1 x2 i

/-- The reference's gated result is the token-major gated array. -/
theorem gated_eq (x0 : (⟨S32768x1024, .f32⟩ : BufTy).Contents (Elt Ideal)) (x1 : (⟨S64x1024, .f32⟩ : BufTy).Contents (Elt Ideal))
    (x2 : (⟨S64, .f32⟩ : BufTy).Contents (Elt Ideal)) :
    val_main_v14 (F := Ideal) x0 x1 x2 = gatedOut x0 x1 x2 := by
  funext i
  rw [val_main_v14_apply, prob_apply, mask_apply]
  rfl

end Cert.Gating.Ref

end
-- ==== Proof.KernelGate.lean ====
/-
  What the kernel body computes, entry by entry, from the three blocks it loads.

  The body holds a weight block `[64, 1024]`, a feature block `[2048, 1024]` (2048 tokens) and the biases as a column
  `[64, 1]`. It multiplies the weight block with the transposed feature block on the matrix unit into a zero
  accumulator, so entry `(e, j)` of the product is `∑ₖ w[e, k] · x[j, k]`; adds the bias column broadcast along the
  tokens; applies the logistic function; compares with one half; widens the bit to a word and converts it signed, which
  is the bit read as 0 or 1; and multiplies. So entry `(e, j)` of the stored blocks is `Gating.gated` and
  `Gating.mask` of `Gating.prob` of row `e` of the weights, row `j` of the features and bias `e`.
-/
import proofs.«107763_g22239340659018_cont_8to1_1570_20_alg».proof.Proof.Gen.KernelIdeal.Skeleton
import proofs.«107763_g22239340659018_cont_8to1_1570_20_alg».proof.Proof.GateSpec
import Idealize.ShloMosaic.Lib.KernelVsHost
import Idealize.ShloMosaic.Lib.Pipeline.Value
import Idealize.ShloMosaic.Lib.ValueIdx
import Idealize.ShloMosaic.PureOps.Ideal.Laws

noncomputable section

namespace Cert.Gating.Body

open Cert.KernelIdeal Cert.KernelIdeal.Gen
open Idealize.ShloMosaic Idealize.ShloMosaic.ValueIdx
open scoped BigOperators

/-! ## The matrix product at an entry -/

/-- The product's entry `(e, j)` reads the weights in row `e` … -/
theorem lhs_dot_0 (i : S64x2048.Idx) (q : dot_S64x1024_S2048x1024_S64x2048_1_1_0_0_n_n.contr.Idx) :
    (dot_S64x1024_S2048x1024_S64x2048_1_1_0_0_n_n.lhsIdx i q 0).val = (i 0).val := by
  unfold DotDims.lhsIdx
  rw [dif_neg (show ¬(0 : Fin S64x1024.rank) ∈ dot_S64x1024_S2048x1024_S64x2048_1_1_0_0_n_n.lhsBatch by decide), dif_pos (show (0 : Fin S64x1024.rank) ∈ dot_S64x1024_S2048x1024_S64x2048_1_1_0_0_n_n.lhsNonContracting by decide)]
  rfl
/-- … at the contracted position, … -/
theorem lhs_dot_1 (i : S64x2048.Idx) (q : dot_S64x1024_S2048x1024_S64x2048_1_1_0_0_n_n.contr.Idx) :
    (dot_S64x1024_S2048x1024_S64x2048_1_1_0_0_n_n.lhsIdx i q 1).val = (q ⟨0, by decide⟩).val :=
  dot_S64x1024_S2048x1024_S64x2048_1_1_0_0_n_n.lhsIdx_val_of_single rfl i q
/-- … and the features in row `j` … -/
theorem rhs_dot_0 (i : S64x2048.Idx) (q : dot_S64x1024_S2048x1024_S64x2048_1_1_0_0_n_n.contr.Idx) :
    (dot_S64x1024_S2048x1024_S64x2048_1_1_0_0_n_n.rhsIdx i q 0).val = (i 1).val := by
  unfold DotDims.rhsIdx
  rw [dif_neg (show ¬(0 : Fin S2048x1024.rank) ∈ dot_S64x1024_S2048x1024_S64x2048_1_1_0_0_n_n.rhsBatch by decide), dif_pos (show (0 : Fin S2048x1024.rank) ∈ dot_S64x1024_S2048x1024_S64x2048_1_1_0_0_n_n.rhsNonContracting by decide)]
  rfl
/-- … at the same contracted position. -/
theorem rhs_dot_1 (i : S64x2048.Idx) (q : dot_S64x1024_S2048x1024_S64x2048_1_1_0_0_n_n.contr.Idx) :
    (dot_S64x1024_S2048x1024_S64x2048_1_1_0_0_n_n.rhsIdx i q 1).val = (q ⟨0, by decide⟩).val :=
  dot_S64x1024_S2048x1024_S64x2048_1_1_0_0_n_n.rhsIdx_val_of_single rfl i q

/-- Into a zero accumulator the product's entry `(e, j)` is the inner product of weight row `e` and feature row `j`. -/
theorem product_apply (v0 : FVec Ideal S64x1024 .f32) (v1 : FVec Ideal S2048x1024 .f32) (i : S64x2048.Idx) :
    matmul dot_S64x1024_S2048x1024_S64x2048_1_1_0_0_n_n none v0 v1 (constant S64x2048 .f32 0x00000000#32) i
      = ∑ k : Fin 1024, v0 (ix2 (i 0) k) * v1 (ix2 (i 1) k) := by
  show FloatOps.matmul dot_S64x1024_S2048x1024_S64x2048_1_1_0_0_n_n none v0 v1 (constant S64x2048 .f32 0x00000000#32) i = _
  rw [Ideal.matmul_constant_zero_apply, ← Equiv.sum_comp (contrEquiv1 dot_S64x1024_S2048x1024_S64x2048_1_1_0_0_n_n 1024 rfl rfl).symm]
  refine Finset.sum_congr rfl fun k _ => ?_
  have hk := contrEquiv1_symm_val dot_S64x1024_S2048x1024_S64x2048_1_1_0_0_n_n 1024 rfl rfl k
  have el : dot_S64x1024_S2048x1024_S64x2048_1_1_0_0_n_n.lhsIdx i ((contrEquiv1 dot_S64x1024_S2048x1024_S64x2048_1_1_0_0_n_n 1024 rfl rfl).symm k) = ix2 (i 0) k := funext fun a => Fin.ext (by
    match a with
    | ⟨0, _⟩ => exact lhs_dot_0 _ _
    | ⟨1, _⟩ => exact (lhs_dot_1 _ _).trans hk)
  have er : dot_S64x1024_S2048x1024_S64x2048_1_1_0_0_n_n.rhsIdx i ((contrEquiv1 dot_S64x1024_S2048x1024_S64x2048_1_1_0_0_n_n 1024 rfl rfl).symm k) = ix2 (i 1) k := funext fun a => Fin.ext (by
    match a with
    | ⟨0, _⟩ => exact rhs_dot_0 _ _
    | ⟨1, _⟩ => exact (rhs_dot_1 _ _).trans hk)
  rw [el, er]
  rfl

/-! ## The bias column broadcast along the tokens -/

/-- Entry `(e, j)` of the broadcast column is the column's entry `e`. -/
theorem bias_apply (v3 : FVec Ideal S64x1 .f32) (i : S64x2048.Idx) :
    broadcastTo S64x2048 (shapeCast S64x1 v3 Facts₀.shapeCasts_S64x1_S64x1) Facts₀.broadcasts_S64x1_S64x2048 i = v3 (ix2 (i 0) (0 : Fin 1)) := by
  rw [shapeCast_self]
  exact broadcastTo_apply v3 Facts₀.broadcasts_S64x1_S64x2048 i (ix2 (i 0) (0 : Fin 1)) (fun a => match a with
    | ⟨0, _⟩ => by show (i 0).val = if (64 : Nat) = 1 then 0 else (i 0).val; rw [if_neg (by decide)]
    | ⟨1, _⟩ => by show 0 = if (1 : Nat) = 1 then 0 else (i 1).val; rw [if_pos rfl])

/-! ## The three payloads -/

/-- The probabilities the body computes: entry `(e, j)` is the probability from weight row `e`, feature row `j` and
    bias `e`. -/
theorem pay_prob_apply (v0 : Vec Ideal S64x1024 .f32) (v1 : Vec Ideal S2048x1024 .f32) (v3 : Vec Ideal S64x1 .f32) (i : S64x2048.Idx) :
    k0_pay1 (F := Ideal) v0 v1 v3 i = prob (fun k => v0 (ix2 (i 0) k)) (fun k => v1 (ix2 (i 1) k)) (v3 (ix2 (i 0) (0 : Fin 1))) := by
  unfold k0_pay1
  show Ideal.logistic (matmul (F := Ideal) dot_S64x1024_S2048x1024_S64x2048_1_1_0_0_n_n none v0 v1 (constant (F := Ideal) S64x2048 .f32 0x00000000#32) i
    + broadcastTo S64x2048 (shapeCast S64x1 v3 Facts₀.shapeCasts_S64x1_S64x1) Facts₀.broadcasts_S64x1_S64x2048 i) = _
  rw [product_apply, bias_apply]
  rfl

/-- The mask block: the comparison bit, widened and converted signed, is the bit as 0 or 1. -/
theorem pay_mask_apply (v0 : Vec Ideal S64x1024 .f32) (v1 : Vec Ideal S2048x1024 .f32) (v3 : Vec Ideal S64x1 .f32) (i : S64x2048.Idx) :
    k0_pay2 (F := Ideal) v0 v1 v3 i = mask (k0_pay1 (F := Ideal) v0 v1 v3 i) := by
  unfold k0_pay2
  show (sitofp .f32 (extui 32 (cmpf .ogt (k0_pay1 (F := Ideal) v0 v1 v3) (broadcast S64x2048 (Scalar.ofBits (F := Ideal) .f32 0x3F000000#32))) Facts₀.natLt_1_32) : FVec Ideal S64x2048 .f32) i = _
  rw [sitofp_extui_eq_uitofp]
  rfl

/-- The gated block: the probability times its mask. -/
theorem pay_gated_apply (v0 : Vec Ideal S64x1024 .f32) (v1 : Vec Ideal S2048x1024 .f32) (v3 : Vec Ideal S64x1 .f32) (i : S64x2048.Idx) :
    k0_pay3 (F := Ideal) v0 v1 v3 i = gated (k0_pay1 (F := Ideal) v0 v1 v3 i) := by
  unfold k0_pay3
  show k0_pay1 (F := Ideal) v0 v1 v3 i * k0_pay2 (F := Ideal) v0 v1 v3 i = _
  rw [pay_mask_apply]
  rfl

end Cert.Gating.Body

end
-- ==== Proof.KernelArrays.lean ====
/-
  The arrays the kernel program ends with.

  The grid has 16 points; point `t` handles tokens `2048·t … 2048·t + 2047`. Its feature block is those rows of the
  features, its weight block is all the weights, its bias block is the whole bias column, and it writes columns
  `2048·t … 2048·t + 2047` of two expert-major arrays `[64, 32768]`. By the entry-by-entry reading of the body, what point
  `t` writes is the corresponding block of `Gating.gatedT` and `Gating.maskT`; the 16 column blocks cover the arrays (column
  `j` lies in block `j / 2048`), so the arrays end as those two functions. The bias column is the bias vector reshaped, so
  its entry `(e, 0)` is bias `e`. After the grid the program transposes both arrays; entry `(t, e)` of a transpose is entry
  `(e, t)` of its operand, which turns the expert-major functions into the token-major `Gating.gatedOut` and `Gating.maskOut`.
-/
import proofs.«107763_g22239340659018_cont_8to1_1570_20_alg».proof.Proof.Gen.KernelIdeal.Frame
import proofs.«107763_g22239340659018_cont_8to1_1570_20_alg».proof.Proof.KernelGate
import Idealize.ShloMosaic.Lib.Pipeline.Value
import Idealize.ShloMosaic.Lib.StableHlo.Run
import Idealize.ShloMosaic.Lib.Tactic

set_option maxRecDepth 16384

noncomputable section

namespace Cert.Gating.Arrays

open Cert.KernelIdeal Cert.KernelIdeal.Gen
open Idealize.ShloMosaic Idealize.ShloMosaic.TcCoe Idealize.ShloMosaic.ValueIdx Idealize.SL.Sem
open Idealize.ShloMosaic.Pipeline (Dat)
open Cert.Gating Cert.Gating.Body

variable (m : (ℓ : Loc nD τ sig) → Buf (Elt Ideal) ℓ) (ρ : Dev nD → PrngReg)

theorem hz : (![0, 0] : Fin 2 → Nat) = fun _ => 0 := funext fun a => by fin_cases a <;> rfl

/-- The block each window holds at point `t`: the features move down with `t`, the weights and the bias column stay, the
    two outputs move right with `t`. -/
theorem idx_facts : ∀ t : Fin cfg0.N, win0_0.index t (0 : Fin 2) = t.val ∧ win0_0.index t (1 : Fin 2) = 0
    ∧ win0_1.index t (0 : Fin 2) = 0 ∧ win0_1.index t (1 : Fin 2) = 0
    ∧ win0_2.index t (0 : Fin 2) = 0 ∧ win0_2.index t (1 : Fin 2) = 0
    ∧ win0_3.index t (0 : Fin 2) = 0 ∧ win0_3.index t (1 : Fin 2) = t.val
    ∧ win0_4.index t (0 : Fin 2) = 0 ∧ win0_4.index t (1 : Fin 2) = t.val :=
  (by decide +kernel : ∀ t : Fin grid0.N, _)

/-! ## The arrays the grid reads, and its blocks of them -/

/-- The features, the weights and the bias column as the grid finds them. -/
abbrev xarr (c : Dev nD) : S32768x1024.Idx → EReal := V m c main_arg0
abbrev warr (c : Dev nD) : S64x1024.Idx → EReal := V m c main_arg1
abbrev bcol (c : Dev nD) : S64x1.Idx → EReal := V m c main_v0
/-- The biases as a vector, read off the column. -/
def bvec (c : Dev nD) : SB.Idx → EReal := fun i => bcol m c (ix2 (i 0) (0 : Fin 1))

/-- The three blocks the body loads at point `t`. -/
abbrev xblk (c : Dev nD) (t : Fin cfg0.N) : Vec Ideal S2048x1024 .f32 := iblk m c 0 t
abbrev wblk (c : Dev nD) (t : Fin cfg0.N) : Vec Ideal S64x1024 .f32 := iblk m c 1 t
abbrev bblk (c : Dev nD) (t : Fin cfg0.N) : Vec Ideal S64x1 .f32 := iblk m c 2 t

/-- Row `j` of point `t`'s feature block is row `2048·t + j` of the features. -/
theorem xblk_apply (c : Dev nD) (t : Fin cfg0.N) (j : Fin 2048) (k : Fin 1024) (tok : Fin 32768) (h : tok.val = t.val * 2048 + j.val) :
    xblk m c t (ix2 j k) = xarr m c (ix2 tok k) := by
  obtain ⟨e0, e1, -⟩ := idx_facts t
  show V m c main_arg0 (((cfg0.win 0).blk t).view.emb (ix2 j k)) = V m c main_arg0 (ix2 tok k)
  refine congrArg _ (funext fun a => Fin.ext ?_)
  match a with
  | ⟨0, _⟩ => show win0_0.index t (0 : Fin 2) * 2048 + 1 * j.val = tok.val; omega
  | ⟨1, _⟩ => show win0_0.index t (1 : Fin 2) * 1024 + 1 * k.val = k.val; omega

/-- Every point's weight block is the weights. -/
theorem wblk_apply (c : Dev nD) (t : Fin cfg0.N) (e : Fin 64) (k : Fin 1024) (e' : Fin 64) (h : e'.val = e.val) :
    wblk m c t (ix2 e k) = warr m c (ix2 e' k) := by
  obtain ⟨-, -, e2, e3, -⟩ := idx_facts t
  show V m c main_arg1 (((cfg0.win 1).blk t).view.emb (ix2 e k)) = V m c main_arg1 (ix2 e' k)
  refine congrArg _ (funext fun a => Fin.ext ?_)
  match a with
  | ⟨0, _⟩ => show win0_1.index t (0 : Fin 2) * 64 + 1 * e.val = e'.val; omega
  | ⟨1, _⟩ => show win0_1.index t (1 : Fin 2) * 1024 + 1 * k.val = k.val; omega

/-- Every point's bias block is the bias column. -/
theorem bblk_apply (c : Dev nD) (t : Fin cfg0.N) (e : Fin 64) (e' : Fin 64) (h : e'.val = e.val) :
    bblk m c t (ix2 e (0 : Fin 1)) = bvec m c (ix1 e') := by
  obtain ⟨-, -, -, -, e4, e5, -⟩ := idx_facts t
  show V m c main_v0 (((cfg0.win 2).blk t).view.emb (ix2 e (0 : Fin 1))) = V m c main_v0 (ix2 e' (0 : Fin 1))
  refine congrArg _ (funext fun a => Fin.ext ?_)
  match a with
  | ⟨0, _⟩ => show win0_2.index t (0 : Fin 2) * 64 + 1 * e.val = e'.val; omega
  | ⟨1, _⟩ => show win0_2.index t (1 : Fin 2) * 1 + 1 * 0 = 0; omega

/-- Entry `(e, j)` of the probabilities point `t` computes is the probability of expert `e` for token `2048·t + j`. -/
theorem prob_block (c : Dev nD) (t : Fin cfg0.N) (y : S64x2048.Idx) (tok : Fin 32768) (e : Fin 64)
    (he : e.val = (y 0).val) (ht : tok.val = t.val * 2048 + (y 1).val) :
    k0_pay1 (F := Ideal) (wblk m c t) (xblk m c t) (bblk m c t) y = probAt (xarr m c) (warr m c) (bvec m c) tok e := by
  refine (pay_prob_apply (wblk m c t) (xblk m c t) (bblk m c t) y).trans ?_
  unfold probAt
  have hw : (fun k => wblk m c t (ix2 (y 0) k)) = fun k => warr m c (ix2 e k) := funext fun k => wblk_apply m c t (y 0) k e he
  have hx : (fun k => xblk m c t (ix2 (y 1) k)) = fun k => xarr m c (ix2 tok k) := funext fun k => xblk_apply m c t (y 1) k tok ht
  have hb : bblk m c t (ix2 (y 0) (0 : Fin 1)) = bvec m c (ix1 e) := bblk_apply m c t (y 0) e he
  rw [hw, hx, hb]

/-! ## What each point writes back -/

/-- Point `t` writes block `t` of the expert-major gated array. -/
theorem flushed_gated (c : Dev nD) (t : Fin cfg0.N) :
    (dats m 0 c).flushed 3 t = ((cfg0.win 3).blk t).view.read (Elt Ideal) (gatedT (xarr m c) (warr m c) (bvec m c)) := by
  show (cfg0.win 3).cut (grid0.coords t) ((dats m 0 c).after 3 t) = _
  rw [after0_3]
  unfold out0_3
  rw [View.canon_unit_zero hz]
  simp only [View.ld_unit_zero (S := S64x1024) hz, View.ld_unit_zero (S := S2048x1024) hz, View.ld_unit_zero (S := S64x1) hz]
  obtain ⟨-, -, -, -, -, -, e6, e7, -⟩ := idx_facts t
  funext y
  show k0_pay3 (F := Ideal) (wblk m c t) (xblk m c t) (bblk m c t) y
    = gated (probAt (xarr m c) (warr m c) (bvec m c) ((((cfg0.win 3).blk t).view.emb y) 1) ((((cfg0.win 3).blk t).view.emb y) 0))
  refine (pay_gated_apply (wblk m c t) (xblk m c t) (bblk m c t) y).trans (congrArg gated (prob_block m c t y _ _ ?_ ?_))
  · show win0_3.index t (0 : Fin 2) * 64 + 1 * (y 0).val = (y 0).val; omega
  · show win0_3.index t (1 : Fin 2) * 2048 + 1 * (y 1).val = t.val * 2048 + (y 1).val; omega

/-- Point `t` writes block `t` of the expert-major mask array. -/
theorem flushed_mask (c : Dev nD) (t : Fin cfg0.N) :
    (dats m 0 c).flushed 4 t = ((cfg0.win 4).blk t).view.read (Elt Ideal) (maskT (xarr m c) (warr m c) (bvec m c)) := by
  show (cfg0.win 4).cut (grid0.coords t) ((dats m 0 c).after 4 t) = _
  rw [after0_4]
  unfold out0_4
  rw [View.canon_unit_zero hz]
  simp only [View.ld_unit_zero (S := S64x1024) hz, View.ld_unit_zero (S := S2048x1024) hz, View.ld_unit_zero (S := S64x1) hz]
  obtain ⟨-, -, -, -, -, -, -, -, e8, e9⟩ := idx_facts t
  funext y
  show k0_pay2 (F := Ideal) (wblk m c t) (xblk m c t) (bblk m c t) y
    = mask (probAt (xarr m c) (warr m c) (bvec m c) ((((cfg0.win 4).blk t).view.emb y) 1) ((((cfg0.win 4).blk t).view.emb y) 0))
  refine (pay_mask_apply (wblk m c t) (xblk m c t) (bblk m c t) y).trans (congrArg mask (prob_block m c t y _ _ ?_ ?_))
  · show win0_4.index t (0 : Fin 2) * 64 + 1 * (y 0).val = (y 0).val; omega
  · show win0_4.index t (1 : Fin 2) * 2048 + 1 * (y 1).val = t.val * 2048 + (y 1).val; omega

/-! ## The column blocks cover the arrays -/

theorem mem_blk_gated (t : Fin cfg0.N) (i : S64x32768.Idx) :
    i ∈ ((cfg0.win 3).blk t).view.set ↔ ∀ a : Fin 2, win0_3.index t a * S64x2048.size a ≤ (i a).val ∧ (i a).val < win0_3.index t a * S64x2048.size a + S64x2048.size a := by
  show i ∈ ((View.whole main_v1_0).slice (win0_3.rect t)).set ↔ _
  rw [View.set_slice_whole, Rect.mem_set_unit]
  exact Iff.rfl

theorem mem_blk_mask (t : Fin cfg0.N) (i : S64x32768.Idx) :
    i ∈ ((cfg0.win 4).blk t).view.set ↔ ∀ a : Fin 2, win0_4.index t a * S64x2048.size a ≤ (i a).val ∧ (i a).val < win0_4.index t a * S64x2048.size a + S64x2048.size a := by
  show i ∈ ((View.whole main_v1_1).slice (win0_4.rect t)).set ↔ _
  rw [View.set_slice_whole, Rect.mem_set_unit]
  exact Iff.rfl

/-- The point whose block holds column `j`: `j / 2048`. -/
def pointOf (i : S64x32768.Idx) : Fin cfg0.N := ⟨(i 1).val / 2048, by
  have h1 : (i 1).val < 32768 := (i 1).isLt
  have hN : cfg0.N = 16 := N_0
  rw [hN]; omega⟩

theorem cover_gated (i : S64x32768.Idx) : ∃ t : Fin cfg0.N, (cfg0.win 3).flush t = true ∧ i ∈ ((cfg0.win 3).blk t).view.set := by
  have h0 : (i 0).val < 64 := (i 0).isLt
  have h1 : (i 1).val < 32768 := (i 1).isLt
  have ht : (pointOf i).val = (i 1).val / 2048 := rfl
  refine ⟨pointOf i, flush0_3 (pointOf i), ?_⟩
  rw [mem_blk_gated]
  obtain ⟨-, -, -, -, -, -, e6, e7, -⟩ := idx_facts (pointOf i)
  intro a
  match a with
  | ⟨0, _⟩ => show win0_3.index (pointOf i) (0 : Fin 2) * 64 ≤ (i 0).val ∧ (i 0).val < win0_3.index (pointOf i) (0 : Fin 2) * 64 + 64; omega
  | ⟨1, _⟩ => show win0_3.index (pointOf i) (1 : Fin 2) * 2048 ≤ (i 1).val ∧ (i 1).val < win0_3.index (pointOf i) (1 : Fin 2) * 2048 + 2048; omega

theorem cover_mask (i : S64x32768.Idx) : ∃ t : Fin cfg0.N, (cfg0.win 4).flush t = true ∧ i ∈ ((cfg0.win 4).blk t).view.set := by
  have h0 : (i 0).val < 64 := (i 0).isLt
  have h1 : (i 1).val < 32768 := (i 1).isLt
  have ht : (pointOf i).val = (i 1).val / 2048 := rfl
  refine ⟨pointOf i, flush0_4 (pointOf i), ?_⟩
  rw [mem_blk_mask]
  obtain ⟨-, -, -, -, -, -, -, -, e8, e9⟩ := idx_facts (pointOf i)
  intro a
  match a with
  | ⟨0, _⟩ => show win0_4.index (pointOf i) (0 : Fin 2) * 64 ≤ (i 0).val ∧ (i 0).val < win0_4.index (pointOf i) (0 : Fin 2) * 64 + 64; omega
  | ⟨1, _⟩ => show win0_4.index (pointOf i) (1 : Fin 2) * 2048 ≤ (i 1).val ∧ (i 1).val < win0_4.index (pointOf i) (1 : Fin 2) * 2048 + 2048; omega

/-- After the grid the two arrays are the expert-major gated and mask functions. -/
theorem final_gated (c : Dev nD) : (dats m 0 c).arrAt 3 cfg0.N = gatedT (xarr m c) (warr m c) (bvec m c) :=
  (dats m 0 c).arrAt_eq_of_cover 3 (gatedT (xarr m c) (warr m c) (bvec m c)) (fun t _ => flushed_gated m c t) cover_gated
theorem final_mask (c : Dev nD) : (dats m 0 c).arrAt 4 cfg0.N = maskT (xarr m c) (warr m c) (bvec m c) :=
  (dats m 0 c).arrAt_eq_of_cover 4 (maskT (xarr m c) (warr m c) (bvec m c)) (fun t _ => flushed_mask m c t) cover_mask

/-! ## The arrays the grid reads are the program's arguments -/

theorem xarr_eq (c : Dev nD) : xarr m c = m ((c : Thread nD τ).loc main_arg0) := V_main_arg0 m c
theorem warr_eq (c : Dev nD) : warr m c = m ((c : Thread nD τ).loc main_arg1) := V_main_arg1 m c

/-- The bias column is the bias vector reshaped: its entry `(e, 0)` is bias `e`. -/
theorem bvec_eq (c : Dev nD) : bvec m c = m ((c : Thread nD τ).loc main_arg2) := by
  have e : (V m c main_v0 : S64x1.Idx → EReal) = shapeCast S64x1 (m ((c : Thread nD τ).loc main_arg2) : S64.Idx → EReal) Facts₀.shapeCasts_S64_S64x1 := by
    show StableHlo.after hostOps0 (fun b => m (c, b)) (Proc.devRef .tc main_v0) = _
    after_results
    rfl
  funext i
  show V m c main_v0 (ix2 (i 0) (0 : Fin 1)) = _
  rw [e]
  refine shapeCast_apply _ _ (ix2 (i 0) (0 : Fin 1)) i ?_
  rw [Shape.rowMajor_val_one, Shape.rowMajor_val_two]
  show (i 0).val = (i 0).val * 1 + 0
  omega

/-! ## The transposes after the grid, and the run -/

/-- Entry `(t, e)` of the transpose of an expert-major array is its entry `(e, t)`. -/
theorem transpose_ET (A : S64x32768.Idx → EReal) (i : S32768x64.Idx) :
    transpose S32768x64 [1, 0] A Facts₀.transposes_S64x32768_S32768x64_1_0 i = A (ix2 (i 1) (i 0)) :=
  transpose_apply [1, 0] A Facts₀.transposes_S64x32768_S32768x64_1_0 i (ix2 (i 1) (i 0)) (fun b => match b with
    | ⟨0, _⟩ => rfl
    | ⟨1, _⟩ => rfl)

/-- The first result after the lines that follow the grid: the token-major gated array of the arguments. -/
theorem result_gated (c : Dev nD) :
    Pipeline.afterTail₀ cfgs (dats m) 0 (V0 m) [hostOps1] c main_v2
      = gatedOut (m ((c : Thread nD τ).loc main_arg0)) (m ((c : Thread nD τ).loc main_arg1)) (m ((c : Thread nD τ).loc main_arg2)) := by
  unfold Pipeline.afterTail₀
  show StableHlo.after hostOps1 _ (Proc.devRef .tc main_v2) = _
  after_results
  rw [(Pipeline.withArrays_arr spec0 launch0.win.arr_inj c _ _ 3).trans (final_gated m c), xarr_eq, warr_eq, bvec_eq]
  funext i
  rw [transpose_ET]
  rfl

/-- The second result: the token-major mask array of the arguments. -/
theorem result_mask (c : Dev nD) :
    Pipeline.afterTail₀ cfgs (dats m) 0 (V0 m) [hostOps1] c main_v3
      = maskOut (m ((c : Thread nD τ).loc main_arg0)) (m ((c : Thread nD τ).loc main_arg1)) (m ((c : Thread nD τ).loc main_arg2)) := by
  unfold Pipeline.afterTail₀
  show StableHlo.after hostOps1 _ (Proc.devRef .tc main_v3) = _
  after_results
  rw [(Pipeline.withArrays_arr spec0 launch0.win.arr_inj c _ _ 4).trans (final_mask m c), xarr_eq, warr_eq, bvec_eq]
  funext i
  rw [transpose_ET]
  rfl

/-- The kernel program's run, read: both results at the gating functions of the arguments, the arguments unchanged. -/
theorem run : θ_run defs (onTc (τ := τ) (main (F := Ideal))) ⟨m, fun _ => 0, ρ⟩ fun r => ∀ c : Dev nD,
      r.2.mem ((c.tc : Thread nD τ).loc main_v2) = gatedOut (m ((c : Thread nD τ).loc main_arg0)) (m ((c : Thread nD τ).loc main_arg1)) (m ((c : Thread nD τ).loc main_arg2))
      ∧ r.2.mem ((c.tc : Thread nD τ).loc main_v3) = maskOut (m ((c : Thread nD τ).loc main_arg0)) (m ((c : Thread nD τ).loc main_arg1)) (m ((c : Thread nD τ).loc main_arg2))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2) :=
  (θ_run defs _ _).mono (fun _ h c =>
    ⟨((h c).2 main_v2 (Pipeline.mem_restRefs_of main_v2 (by decide) (by decide))).trans (result_gated m c),
     ((h c).2 main_v3 (Pipeline.mem_restRefs_of main_v3 (by decide) (by decide))).trans (result_mask m c),
     ((h c).1 0).trans (((dats m 0 c).arrAt_in 0 rfl _).trans ((A_eq m c 0).trans (V_main_arg0 m c))),
     ((h c).1 1).trans (((dats m 0 c).arrAt_in 1 rfl _).trans ((A_eq m c 1).trans (V_main_arg1 m c))),
     ((h c).2 main_arg2 (Pipeline.mem_restRefs_of main_arg2 (by decide) (by decide))).trans (W_main_arg2 m (dats m) c)⟩)
    (run_main m ρ)

end Cert.Gating.Arrays

end
-- ==== Proof.lean ====
/-
  Top-any gating: a fused kernel against its plain reference, equal over the extended reals.

  Both programs take features `x : [32768, 1024]`, weights `W : [64, 1024]` and biases `b : [64]`, and return, for every token
  `t` and expert `e`, the gated probability `p · [p > 1/2]` and the mask `[p > 1/2]`, where
  `p = logistic (∑ₖ x[t, k] · W[e, k] + b[e])`.

  The reference contracts `x` with the transposed weights, adds the broadcast biases, spells the logistic function as
  `1 / (1 + exp (-z))`, compares with one half and multiplies. The kernel works expert-major: over a grid of 16 token
  blocks it forms `W · x_blockᵀ` on the matrix unit, adds the bias column, applies the logistic function, compares,
  multiplies, and writes column blocks of two `[64, 32768]` arrays, which the program then transposes.

  The two agree entry by entry (`Gating`, in GateSpec): the kernel's inner product has the weight as the left factor and
  the reference's has the feature, and the product of extended reals commutes; the logistic function is one function on
  both sides; the comparison bit widened and converted signed is the bit converted unsigned. No law that fails at an
  infinity is used, so the finiteness of the inputs is never opened. RefGate reads the reference's stages as these
  functions, KernelGate reads the kernel body's stored blocks, and KernelArrays assembles the blocks into the arrays and
  carries them through the transposes. The three frames are the programs' runs with the values dropped, and the kernel has
  no rewritten operation, so it is its own idealization.
-/
import proofs.«107763_g22239340659018_cont_8to1_1570_20_alg».proof.Defs
import proofs.«107763_g22239340659018_cont_8to1_1570_20_alg».proof.Proof.Gen.Kernel
import proofs.«107763_g22239340659018_cont_8to1_1570_20_alg».proof.Proof.Gen.Kernel.Skeleton
import proofs.«107763_g22239340659018_cont_8to1_1570_20_alg».proof.Proof.Gen.Kernel.Launch
import proofs.«107763_g22239340659018_cont_8to1_1570_20_alg».proof.Proof.Gen.Kernel.Points
import proofs.«107763_g22239340659018_cont_8to1_1570_20_alg».proof.Proof.Gen.Kernel.Frame
import proofs.«107763_g22239340659018_cont_8to1_1570_20_alg».proof.Proof.Gen.KernelIdeal
import proofs.«107763_g22239340659018_cont_8to1_1570_20_alg».proof.Proof.Gen.KernelIdeal.Skeleton
import proofs.«107763_g22239340659018_cont_8to1_1570_20_alg».proof.Proof.Gen.KernelIdeal.Launch
import proofs.«107763_g22239340659018_cont_8to1_1570_20_alg».proof.Proof.Gen.KernelIdeal.Points
import proofs.«107763_g22239340659018_cont_8to1_1570_20_alg».proof.Proof.Gen.KernelIdeal.Frame
import proofs.«107763_g22239340659018_cont_8to1_1570_20_alg».proof.Proof.Gen.ReferenceIdeal
import proofs.«107763_g22239340659018_cont_8to1_1570_20_alg».proof.Proof.Gen.ReferenceIdeal.Run
import proofs.«107763_g22239340659018_cont_8to1_1570_20_alg».proof.Proof.Gen.ReferenceIdeal.Read
import proofs.«107763_g22239340659018_cont_8to1_1570_20_alg».proof.Proof.Gen.Pre_finite_inputs
import proofs.«107763_g22239340659018_cont_8to1_1570_20_alg».proof.Proof.RefGate
import proofs.«107763_g22239340659018_cont_8to1_1570_20_alg».proof.Proof.KernelArrays
import Idealize.ShloMosaic.Adequacy
import Idealize.ShloMosaic.Init

noncomputable section

namespace Cert.Proof

open Idealize.ShloMosaic Idealize.ShloMosaic.TcCoe Idealize.SL.Sem

/-- The kernel program as printed runs and keeps its arguments. -/
theorem frame_kernel : Cert.frame_Kernel := fun m ρ _ => Cert.Kernel.Gen.frame m ρ

/-- So does the kernel program read over the extended reals. -/
theorem frame_kernelIdeal : Cert.frame_KernelIdeal := fun m ρ _ => Cert.KernelIdeal.Gen.frame m ρ

/-- The reference runs and keeps its arguments: its run with the two results dropped. -/
theorem frame_reference : Cert.frame_ReferenceIdeal := fun m ρ _ =>
  (θ_run Cert.ReferenceIdeal.defs _ _).mono (fun _ h c => (h c).2.2) (Cert.ReferenceIdeal.Value.run (F := Ideal) m ρ)

/-- Both programs end with the gated probabilities and the mask of the arguments, token-major: the kernel by its column
    blocks and the transposes, the reference stage by stage. -/
theorem algebraic : Cert.algebraic_KernelIdeal_ReferenceIdeal := by
  intro m ρ m' ρ' _ hagree
  refine ⟨fun c => Cert.Gating.gatedOut (m ((c.tc : Thread Cert.KernelIdeal.nD Cert.KernelIdeal.τ).loc Cert.KernelIdeal.main_arg0))
      (m ((c.tc : Thread Cert.KernelIdeal.nD Cert.KernelIdeal.τ).loc Cert.KernelIdeal.main_arg1))
      (m ((c.tc : Thread Cert.KernelIdeal.nD Cert.KernelIdeal.τ).loc Cert.KernelIdeal.main_arg2)),
    fun c => Cert.Gating.maskOut (m ((c.tc : Thread Cert.KernelIdeal.nD Cert.KernelIdeal.τ).loc Cert.KernelIdeal.main_arg0))
      (m ((c.tc : Thread Cert.KernelIdeal.nD Cert.KernelIdeal.τ).loc Cert.KernelIdeal.main_arg1))
      (m ((c.tc : Thread Cert.KernelIdeal.nD Cert.KernelIdeal.τ).loc Cert.KernelIdeal.main_arg2)),
    Cert.Gating.Arrays.run m ρ, ?_⟩
  refine (θ_run Cert.ReferenceIdeal.defs _ _).mono (fun _ h c => ?_) (Cert.ReferenceIdeal.Value.run (F := Ideal) m' ρ')
  obtain ⟨hg, hm, hkept⟩ := h c
  refine ⟨hg.trans ?_, hm.trans ?_, hkept⟩
  · rw [Cert.ReferenceIdeal.Read.val_main_v14_eq, Cert.Gating.Ref.gated_eq, (hagree c).1, (hagree c).2.1, (hagree c).2.2]
  · rw [Cert.ReferenceIdeal.Read.val_main_v13_eq, Cert.Gating.Ref.mask_eq, (hagree c).1, (hagree c).2.1, (hagree c).2.2]

theorem claim : Cert.Claim := ⟨Cert.Kernel.Gen.facts, Cert.KernelIdeal.Gen.facts, Cert.ReferenceIdeal.Gen.facts, Cert.Pre_finite_inputs.Gen.facts,
  frame_kernel, frame_kernelIdeal, frame_reference, trivial, algebraic⟩

end Cert.Proof

end
